-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel

variable [Facts]

def fn {F : FTy → Type} [FloatOps F] (main_arg0 : FVec F S2x16x2048x64 .f32) (main_arg1 : FVec F S2x16x2048x64 .f32) (main_arg2 : FVec F S2x16x2048x64 .f32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  main_v13
-- ==== Kernel.lean ====
abbrev S2x16x2048x64 : Shape := ⟨4, ![2, 16, 2048, 64]⟩
abbrev S2x16x2048x2048 : Shape := ⟨4, ![2, 16, 2048, 2048]⟩
abbrev S1x1x512x64 : Shape := ⟨4, ![1, 1, 512, 64]⟩
abbrev S1x1x2048x64 : Shape := ⟨4, ![1, 1, 2048, 64]⟩
abbrev S1x1x512x2048 : Shape := ⟨4, ![1, 1, 512, 2048]⟩
abbrev S2048x64 : Shape := ⟨2, ![2048, 64]⟩
abbrev S1x1x256x64 : Shape := ⟨4, ![1, 1, 256, 64]⟩
abbrev S256x64 : Shape := ⟨2, ![256, 64]⟩
abbrev S256x2048 : Shape := ⟨2, ![256, 2048]⟩
abbrev S256 : Shape := ⟨1, ![256]⟩
abbrev S256x1 : Shape := ⟨2, ![256, 1]⟩
abbrev S1x1x256x2048 : Shape := ⟨4, ![1, 1, 256, 2048]⟩

abbrev nBuf : Space → Nat
  | .hbm => 5
  | .vmem => 10
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x16x2048x64, .f32⟩
  | .hbm, ⟨4, _⟩ => ⟨S2x16x2048x2048, .f32⟩
  | .local _ .vmem, ⟨0, _⟩ => ⟨S1x1x512x64, .f32⟩
  | .local _ .vmem, ⟨1, _⟩ => ⟨S1x1x512x64, .f32⟩
  | .local _ .vmem, ⟨2, _⟩ => ⟨S1x1x2048x64, .f32⟩
  | .local _ .vmem, ⟨3, _⟩ => ⟨S1x1x2048x64, .f32⟩
  | .local _ .vmem, ⟨4, _⟩ => ⟨S1x1x2048x64, .f32⟩
  | .local _ .vmem, ⟨5, _⟩ => ⟨S1x1x2048x64, .f32⟩
  | .local _ .vmem, ⟨6, _⟩ => ⟨S1x1x512x64, .f32⟩
  | .local _ .vmem, ⟨7, _⟩ => ⟨S1x1x512x64, .f32⟩
  | .local _ .vmem, ⟨8, _⟩ => ⟨S1x1x512x2048, .f32⟩
  | .local _ .vmem, ⟨9, _⟩ => ⟨S1x1x512x2048, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 16, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

class Facts₀ : Prop where
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  bitsLt_bf16_f32 : FTy.bits .bf16 < FTy.bits .f32
  inb_S1x1x512x64_S1x1x256x64_0_0_0_0 : ∀ a, (![0, 0, 0, 0] : Fin 4 → Nat) a + S1x1x256x64.size a ≤ S1x1x512x64.size a
  h_S1x1x256x64 : 0 < S1x1x256x64.numel
  shapeCasts_S1x1x256x64_S256x64 : S1x1x256x64.ShapeCasts S256x64
  reduces_S256x2048_S256 : S256x2048.Reduces [1] S256
  shapeCasts_S256_S256x1 : S256.ShapeCasts S256x1
  broadcasts_S256x1_S256x2048 : S256x1.Broadcasts S256x2048
  inb_S1x1x512x2048_S1x1x256x2048_0_0_0_0 : ∀ a, (![0, 0, 0, 0] : Fin 4 → Nat) a + S1x1x256x2048.size a ≤ S1x1x512x2048.size a
  h_S1x1x256x2048 : 0 < S1x1x256x2048.numel
  shapeCasts_S1x1x256x2048_S256x2048 : S1x1x256x2048.ShapeCasts S256x2048
  shapeCasts_S256x2048_S1x1x256x2048 : S256x2048.ShapeCasts S1x1x256x2048
  shapeCasts_S256x64_S1x1x256x64 : S256x64.ShapeCasts S1x1x256x64
  inb_S1x1x512x64_S1x1x256x64_0_0_256_0 : ∀ a, (![0, 0, 256, 0] : Fin 4 → Nat) a + S1x1x256x64.size a ≤ S1x1x512x64.size a
  inb_S1x1x512x2048_S1x1x256x2048_0_0_256_0 : ∀ a, (![0, 0, 256, 0] : Fin 4 → Nat) a + S1x1x256x2048.size a ≤ S1x1x512x2048.size a
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x64.size a ≤ S2x16x2048x64.size a
  hwx0_0 : ∀ i : grid0.Coords, EltTy.bits .f32 = 32 ∨ (Rect.block (s := S2x16x2048x64) S1x1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S2x16x2048x64.size a
  hwx0_1 : ∀ i : grid0.Coords, EltTy.bits .f32 = 32 ∨ (Rect.block (s := S2x16x2048x64) S1x1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S2x16x2048x64.size a
  hwx0_2 : ∀ i : grid0.Coords, EltTy.bits .f32 = 32 ∨ (Rect.block (s := S2x16x2048x64) S1x1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512x64.size a ≤ S2x16x2048x64.size a
  hwx0_3 : ∀ i : grid0.Coords, EltTy.bits .f32 = 32 ∨ (Rect.block (s := S2x16x2048x64) S1x1x512x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512x2048.size a ≤ S2x16x2048x2048.size a
  hwx0_4 : ∀ i : grid0.Coords, EltTy.bits .f32 = 32 ∨ (Rect.block (s := S2x16x2048x2048) S1x1x512x2048.size (cc0_transform_4 i) (hinb0_4 i)).WholeWords (EltTy.packing .f32)

variable [Facts₀]

def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_arg0) S1x1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x1x512x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x1x512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 22
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x16x2048x2048, .f32⟩
  | .hbm, ⟨4, _⟩ => ⟨S_, .f32⟩
  | .hbm, ⟨5, _⟩ => ⟨S2x16x2048x2048, .f32⟩
  | .hbm, ⟨6, _⟩ => ⟨S2x16x2048x2048, .f32⟩
  | .hbm, ⟨7, _⟩ => ⟨S_, .f32⟩
  | .hbm, ⟨8, _⟩ => ⟨S2x16x2048, .f32⟩
  | .hbm, ⟨9, _⟩ => ⟨S_, .f32⟩
  | .hbm, ⟨10, _⟩ => ⟨S2x16x2048, .f32⟩
  | .hbm, ⟨11, _⟩ => ⟨S2x16x2048, .f32⟩
  | .hbm, ⟨12, _⟩ => ⟨S2x16x2048x1, .f32⟩
  | .hbm, ⟨13, _⟩ => ⟨S2x16x2048x2048, .f32⟩
  | .hbm, ⟨14, _⟩ => ⟨S2x16x2048x2048, .f32⟩
  | .hbm, ⟨15, _⟩ => ⟨S2x16x2048x2048, .f32⟩
  | .hbm, ⟨16, _⟩ => ⟨S_, .f32⟩
  | .hbm, ⟨17, _⟩ => ⟨S2x16x2048, .f32⟩
  | .hbm, ⟨18, _⟩ => ⟨S2x16x2048x1, .f32⟩
  | .hbm, ⟨19, _⟩ => ⟨S2x16x2048x2048, .f32⟩
  | .hbm, ⟨20, _⟩ => ⟨S2x16x2048x2048, .f32⟩
  | .hbm, ⟨21, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.Spec.lean ====
/-
  Scaled dot-product attention over f32[2, 16, 2048, 64] queries, keys and values, stated once as
  functions of the argument arrays, index by index, on the extended reals.

  For a batch `b`, a head `h` and a query row `r` the scores are a family `s k`, `k < 2048`.  The row's
  softmax is `exp (s k - M) / Σ_k' exp (s k' - M)` with `M` the maximum of the row taken from `-∞`, and the
  attended value at column `d` is `Σ_k softmax k · v[b, h, k, d]`.

  The scores themselves are spelt in two ways: the dot product of the query row SCALED by `1/8` with the
  key row (`scoreScaled`), and the dot product of the two rows DIVIDED by `8` (`scoreDiv`).  On finite
  entries the two agree: every product and every partial sum is a real number, and in the reals
  `Σ_d (q_d · 1/8) · k_d = (Σ_d q_d · k_d) · 1/8`.  At an infinite entry the factor cannot be moved across
  the sum (an `∞ - ∞` may appear on one side only), which is why the law asks for finiteness.
-/
import Idealize.ShloMosaic.PureOps.Ideal
import Idealize.ShloMosaic.PureOps.Ideal.Laws
import Idealize.ShloMosaic.Lib.ValueIdx

noncomputable section

namespace Cert.Attention

open Idealize.ShloMosaic Idealize.ShloMosaic.ValueIdx

/-- Queries, keys, values and the attended result: `[batch, head, row, feature]`. -/
abbrev SQ : Shape := ⟨4, ![2, 16, 2048, 64]⟩
/-- The attention weights: `[batch, head, query row, key row]`. -/
abbrev SA : Shape := ⟨4, ![2, 16, 2048, 2048]⟩

/-! ## The two literals -/

/-- The pattern `0x3E000000` is `0.125`, the real number `1/8`. -/
theorem ofBits_eighth : Ideal.ofBits .f32 0x3E000000#32 = ((1 / 8 : ℝ) : EReal) := by
  simp [Ideal.ofBits, Ideal.ieee, -EReal.coe_mul]; norm_num

/-- The pattern `0x41000000` is `8.0`, the real number `8`. -/
theorem ofBits_eight : Ideal.ofBits .f32 0x41000000#32 = ((8 : ℝ) : EReal) := by
  simp [Ideal.ofBits, Ideal.ieee, -EReal.coe_mul]; norm_num

/-! ## One row -/

/-- The maximum of a row of scores, taken from `-∞` (the pattern `0xFF800000`). -/
def rowMax (s : Fin 2048 → EReal) : EReal :=
  (Finset.univ : Finset (Fin 2048)).fold max (Ideal.ofBits .f32 0xFF800000#32) s

/-- The row shifted by its maximum and exponentiated. -/
def rowExp (s : Fin 2048 → EReal) (k : Fin 2048) : EReal := Ideal.exp (s k - rowMax s)

/-- The row's softmax: each exponential over the sum of the row's exponentials. -/
def rowSoftmax (s : Fin 2048 → EReal) (k : Fin 2048) : EReal :=
  Ideal.div (rowExp s k) (∑ k' : Fin 2048, rowExp s k')

/-- The softmax weights applied to one column of the values. -/
def rowAttend (s : Fin 2048 → EReal) (v : Fin 2048 → EReal) : EReal :=
  ∑ k : Fin 2048, rowSoftmax s k * v k

/-! ## The scores, spelt twice -/

/-- The scores of a row as a family over batch, head, query row and key row. -/
abbrev Scores := Fin 2 → Fin 16 → Fin 2048 → Fin 2048 → EReal

/-- Query row scaled by `1/8` first, then the dot product with the key row. -/
def scoreScaled (q k : FVec Ideal SQ .f32) : Scores := fun b h r kk =>
  ∑ d : Fin 64, (q (ix4 b h r d) * Ideal.ofBits .f32 0x3E000000#32) * k (ix4 b h kk d)

/-- The dot product of the two rows, then divided by `8`. -/
def scoreDiv (q k : FVec Ideal SQ .f32) : Scores := fun b h r kk =>
  Ideal.div (∑ d : Fin 64, q (ix4 b h r d) * k (ix4 b h kk d)) (Ideal.ofBits .f32 0x41000000#32)

/-! ## The two result arrays, from a family of scores -/

/-- The attention weights: entry `[b, h, r, k]` is the softmax of row `(b, h, r)` at `k`. -/
def weights (sc : Scores) : FVec Ideal SA .f32 := fun i => rowSoftmax (sc (i 0) (i 1) (i 2)) (i 3)

/-- The attended values: entry `[b, h, r, d]` is row `(b, h, r)`'s weights applied to column `d` of the values of `(b, h)`. -/
def attended (sc : Scores) (v : FVec Ideal SQ .f32) : FVec Ideal SQ .f32 := fun i =>
  rowAttend (sc (i 0) (i 1) (i 2)) (fun kk => v (ix4 (i 0) (i 1) kk (i 3)))

theorem weights_ix4 (sc : Scores) (b : Fin 2) (h : Fin 16) (r kk : Fin 2048) :
    weights sc (ix4 b h r kk) = rowSoftmax (sc b h r) kk := rfl

theorem attended_ix4 (sc : Scores) (v : FVec Ideal SQ .f32) (b : Fin 2) (h : Fin 16) (r : Fin 2048) (d : Fin 64) :
    attended sc v (ix4 b h r d) = rowAttend (sc b h r) (fun kk => v (ix4 b h kk d)) := rfl

/-! ## The law: on finite entries the two spellings of the scores agree -/

/-- A finite sum of real numbers, read in the extended reals, is the real sum. -/
theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- Every entry of an array is a real number. -/
def Finite {s : Shape} (x : FVec Ideal s .f32) : Prop := ∀ i, ∃ r : ℝ, x i = (r : EReal)

/-- With finite queries and keys, scaling the query row by `1/8` before the dot product is dividing the
    dot product by `8`: in the reals the factor moves across the sum. -/
theorem scoreScaled_eq_scoreDiv (q k : FVec Ideal SQ .f32) (hq : Finite q) (hk : Finite k) :
    scoreScaled q k = scoreDiv q k := by
  choose qr hqr using hq
  choose kr hkr using hk
  funext b h r kk
  unfold scoreScaled scoreDiv
  rw [ofBits_eighth, ofBits_eight, Ideal.div_coe (by norm_num : (8 : ℝ) ≠ 0)]
  simp only [hqr, hkr, ← EReal.coe_mul]
  rw [coe_sum, coe_sum, ← EReal.coe_mul, Finset.sum_mul]
  refine congrArg _ (Finset.sum_congr rfl fun d _ => ?_)
  ring

end Cert.Attention

end
-- ==== Proof.RowOps.lean ====
/-
  A row's maximum and a row's sum as a vector unit computes and re-lays them: reduce the [256, 2048] block
  over its second axis into [256], view that as a [256, 1] column, and broadcast the column back along the
  row to [256, 2048].  Read at `(r, k)` the result is the reduction of row `r`, whatever `k`: the
  maximum taken from `-∞` (`rowMax`) or the plain sum.
-/
import proofs.«405126_j4294967296400_3_alg».proof.Proof.Spec
import Idealize.ShloMosaic.Lib.Pipeline.Value

noncomputable section

namespace Cert.Attention

open Idealize.ShloMosaic Idealize.ShloMosaic.ValueIdx

/-- A chunk of 256 query rows against all 2048 key rows. -/
abbrev SC : Shape := ⟨2, ![256, 2048]⟩
abbrev SR : Shape := ⟨1, ![256]⟩
abbrev SCol : Shape := ⟨2, ![256, 1]⟩

/-- The column `[r, 0]` of a [256] vector cast to [256, 1], broadcast along the row, read at `(r, k)`, is the
    vector at `r`. -/
theorem column_broadcast_apply {α : Type} (y : SR.Idx → α) (hsc : SR.ShapeCasts SCol) (hb : SCol.Broadcasts SC)
    (r : Fin 256) (kk : Fin 2048) :
    broadcastTo SC (shapeCast SCol y hsc) hb (ix2 r kk) = y (ix1 r) := by
  rw [broadcastTo_apply _ hb (ix2 r kk) (ix2 r (0 : Fin 1)) (fun a => by
    match a with
    | ⟨0, _⟩ => show r.val = if (256 : Nat) = 1 then 0 else r.val; rw [if_neg (by decide)]
    | ⟨1, _⟩ => show 0 = if (1 : Nat) = 1 then 0 else kk.val; rw [if_pos rfl])]
  exact shapeCast_apply _ hsc (ix2 r (0 : Fin 1)) (ix1 r) (by
    rw [Shape.rowMajor_val_one, Shape.rowMajor_val_two]
    show r.val = r.val * 1 + 0
    omega)

/-- The index of the [256, 2048] block over `[r]` with `k` inserted on the reduced axis is `(r, k)`. -/
theorem lift_row (hred : SC.Reduces [1] SR) (r : Fin 256) (k : Fin 2048) :
    hred.lift (ix1 r) k = ix2 r k :=
  funext fun a => Fin.ext (by match a with | ⟨0, _⟩ => rfl | ⟨1, _⟩ => rfl)

/-- The row maximum, re-laid along the row. -/
theorem rowMax_relaid (x : FVec Ideal SC .f32) (hred : SC.Reduces [1] SR) (hφ : FKind.Formats .f32)
    (hacc : (0xFF800000#32 : BitVec 32) = FKind.maximumf.neutral .f32 hφ)
    (hsc : SR.ShapeCasts SCol) (hb : SCol.Broadcasts SC) (r : Fin 256) (kk : Fin 2048) :
    broadcastTo SC (shapeCast SCol (multiReduction .maximumf [1] SR x 0xFF800000#32 hred hφ hacc) hsc) hb (ix2 r kk)
      = rowMax (fun k => x (ix2 r k)) := by
  rw [column_broadcast_apply, Ideal.multiReduction_maximumf_single]
  have e : (fun k : Fin 2048 => x (hred.lift (ix1 r) k)) = fun k => x (ix2 r k) :=
    funext fun k => by rw [lift_row]
  show (Finset.univ : Finset (Fin 2048)).fold max (Ideal.ofBits .f32 0xFF800000#32)
    (fun k : Fin 2048 => x (hred.lift (ix1 r) k)) = _
  rw [e]
  rfl

/-- The row sum, re-laid along the row. -/
theorem rowSum_relaid (x : FVec Ideal SC .f32) (hred : SC.Reduces [1] SR) (hφ : FKind.Formats .f32)
    (hacc : (0x00000000#32 : BitVec 32) = FKind.add.neutral .f32 hφ)
    (hsc : SR.ShapeCasts SCol) (hb : SCol.Broadcasts SC) (r : Fin 256) (kk : Fin 2048) :
    broadcastTo SC (shapeCast SCol (multiReduction .add [1] SR x 0x00000000#32 hred hφ hacc) hsc) hb (ix2 r kk)
      = ∑ k : Fin 2048, x (ix2 r k) := by
  rw [column_broadcast_apply, Ideal.multiReduction_add_single]
  show (∑ k : Fin 2048, x (hred.lift (ix1 r) k)) = _
  refine Finset.sum_congr rfl fun k _ => ?_
  rw [lift_row]

/-- So a block of scores pushed through "subtract the row maximum, exponentiate, divide by the row sum" is, at
    `(r, k)`, the softmax of row `r` at `k`. -/
theorem softmax_block_apply (x : FVec Ideal SC .f32) (hred : SC.Reduces [1] SR) (hφ : FKind.Formats .f32)
    (haccM : (0xFF800000#32 : BitVec 32) = FKind.maximumf.neutral .f32 hφ)
    (haccS : (0x00000000#32 : BitVec 32) = FKind.add.neutral .f32 hφ)
    (hsc : SR.ShapeCasts SCol) (hb : SCol.Broadcasts SC) (r : Fin 256) (kk : Fin 2048) :
    divf (exp (subf x (broadcastTo SC (shapeCast SCol (multiReduction .maximumf [1] SR x 0xFF800000#32 hred hφ haccM) hsc) hb)))
      (broadcastTo SC (shapeCast SCol (multiReduction .add [1] SR
        (exp (subf x (broadcastTo SC (shapeCast SCol (multiReduction .maximumf [1] SR x 0xFF800000#32 hred hφ haccM) hsc) hb)))
        0x00000000#32 hred hφ haccS) hsc) hb) (ix2 r kk)
      = rowSoftmax (fun k => x (ix2 r k)) kk := by
  have hE : ∀ k : Fin 2048,
      exp (subf x (broadcastTo SC (shapeCast SCol (multiReduction .maximumf [1] SR x 0xFF800000#32 hred hφ haccM) hsc) hb)) (ix2 r k)
        = rowExp (fun k => x (ix2 r k)) k := fun k => by
    show Ideal.exp (x (ix2 r k) - broadcastTo SC _ hb (ix2 r k)) = _
    rw [rowMax_relaid]
    rfl
  rw [divf_apply, rowSum_relaid, hE kk]
  unfold rowSoftmax
  exact congrArg _ (Finset.sum_congr rfl fun k _ => hE k)

end Cert.Attention

end
-- ==== Proof.Payload.lean ====
/-
  The kernel body's arithmetic, read at an index.  Per grid point the body holds a [512, 64] block of
  queries and the whole [2048, 64] keys and values of one (batch, head); it works on the two halves of 256
  query rows one after the other.  For a half `qc` (256 rows), keys `kb` and values `vb`:

    scores  s[r, k] = Σ_d (qc[r, d] · 1/8) · kb[k, d]          (a matrix product into a zero accumulator)
    weights w[r, k] = softmax of row r of s, at k
    result  o[r, d] = Σ_k w[r, k] · vb[k, d]                   (a second matrix product into zero)

  The narrowing of operands to bf16 before each product is the identity on the extended reals.
-/
import proofs.«405126_j4294967296400_3_alg».proof.Proof.Gen.KernelIdeal.Skeleton
import proofs.«405126_j4294967296400_3_alg».proof.Proof.RowOps
import Idealize.ShloMosaic.Lib.Pipeline.Value
import Idealize.ShloMosaic.Lib.ValueIdx
import Idealize.ShloMosaic.PureOps.Ideal.Laws

noncomputable section

namespace Cert.Attention.Body

open Cert.KernelIdeal Cert.KernelIdeal.Gen Idealize.ShloMosaic Idealize.ShloMosaic.ValueIdx Cert.Attention

/-! ## The first product: query rows against key rows, contracting the feature axis of both -/

theorem qk_lhs_0 (j : S256x2048.Idx) (c : dot_S256x64_S2048x64_S256x2048_1_1_0_0_n_n.contr.Idx) :
    (dot_S256x64_S2048x64_S256x2048_1_1_0_0_n_n.lhsIdx j c 0).val = (j 0).val := by
  unfold DotDims.lhsIdx
  rw [dif_neg (show ¬(0 : Fin S256x64.rank) ∈ dot_S256x64_S2048x64_S256x2048_1_1_0_0_n_n.lhsBatch by decide), dif_pos (show (0 : Fin S256x64.rank) ∈ dot_S256x64_S2048x64_S256x2048_1_1_0_0_n_n.lhsNonContracting by decide)]
  rfl
theorem qk_lhs_1 (j : S256x2048.Idx) (c : dot_S256x64_S2048x64_S256x2048_1_1_0_0_n_n.contr.Idx) :
    (dot_S256x64_S2048x64_S256x2048_1_1_0_0_n_n.lhsIdx j c 1).val = (c ⟨0, by decide⟩).val :=
  dot_S256x64_S2048x64_S256x2048_1_1_0_0_n_n.lhsIdx_val_of_single rfl j c
theorem qk_rhs_0 (j : S256x2048.Idx) (c : dot_S256x64_S2048x64_S256x2048_1_1_0_0_n_n.contr.Idx) :
    (dot_S256x64_S2048x64_S256x2048_1_1_0_0_n_n.rhsIdx j c 0).val = (j 1).val := by
  unfold DotDims.rhsIdx
  rw [dif_neg (show ¬(0 : Fin S2048x64.rank) ∈ dot_S256x64_S2048x64_S256x2048_1_1_0_0_n_n.rhsBatch by decide), dif_pos (show (0 : Fin S2048x64.rank) ∈ dot_S256x64_S2048x64_S256x2048_1_1_0_0_n_n.rhsNonContracting by decide)]
  rfl
theorem qk_rhs_1 (j : S256x2048.Idx) (c : dot_S256x64_S2048x64_S256x2048_1_1_0_0_n_n.contr.Idx) :
    (dot_S256x64_S2048x64_S256x2048_1_1_0_0_n_n.rhsIdx j c 1).val = (c ⟨0, by decide⟩).val :=
  dot_S256x64_S2048x64_S256x2048_1_1_0_0_n_n.rhsIdx_val_of_single rfl j c

/-- Entry `(r, k)` of the first product is the dot product of row `r` of the left operand with row `k` of the right. -/
theorem qk_apply (lhs : FVec Ideal S256x64 .bf16) (rhs : FVec Ideal S2048x64 .bf16) (r : Fin 256) (kk : Fin 2048) :
    matmul dot_S256x64_S2048x64_S256x2048_1_1_0_0_n_n none lhs rhs (constant S256x2048 .f32 0x00000000#32) (ix2 r kk)
      = ∑ d : Fin 64, lhs (ix2 r d) * rhs (ix2 kk d) := by
  simp only [matmul]
  rw [Ideal.matmul_constant_zero_apply, ← Equiv.sum_comp (ValueIdx.contrEquiv1 dot_S256x64_S2048x64_S256x2048_1_1_0_0_n_n 64 rfl rfl).symm]
  refine Finset.sum_congr rfl fun d _ => ?_
  have hk := ValueIdx.contrEquiv1_symm_val dot_S256x64_S2048x64_S256x2048_1_1_0_0_n_n 64 rfl rfl d
  have el : dot_S256x64_S2048x64_S256x2048_1_1_0_0_n_n.lhsIdx (ix2 r kk) ((ValueIdx.contrEquiv1 dot_S256x64_S2048x64_S256x2048_1_1_0_0_n_n 64 rfl rfl).symm d) = ix2 r d := funext fun a => Fin.ext (by
    match a with
    | ⟨0, _⟩ => exact qk_lhs_0 _ _
    | ⟨1, _⟩ => exact (qk_lhs_1 _ _).trans hk)
  have er : dot_S256x64_S2048x64_S256x2048_1_1_0_0_n_n.rhsIdx (ix2 r kk) ((ValueIdx.contrEquiv1 dot_S256x64_S2048x64_S256x2048_1_1_0_0_n_n 64 rfl rfl).symm d) = ix2 kk d := funext fun a => Fin.ext (by
    match a with
    | ⟨0, _⟩ => exact qk_rhs_0 _ _
    | ⟨1, _⟩ => exact (qk_rhs_1 _ _).trans hk)
  rw [el, er]

/-! ## The second product: weight rows against value columns, contracting the key axis -/

theorem wv_lhs_0 (j : S256x64.Idx) (c : dot_S256x2048_S2048x64_S256x64_1_0_0_1_n_n.contr.Idx) :
    (dot_S256x2048_S2048x64_S256x64_1_0_0_1_n_n.lhsIdx j c 0).val = (j 0).val := by
  unfold DotDims.lhsIdx
  rw [dif_neg (show ¬(0 : Fin S256x2048.rank) ∈ dot_S256x2048_S2048x64_S256x64_1_0_0_1_n_n.lhsBatch by decide), dif_pos (show (0 : Fin S256x2048.rank) ∈ dot_S256x2048_S2048x64_S256x64_1_0_0_1_n_n.lhsNonContracting by decide)]
  rfl
theorem wv_lhs_1 (j : S256x64.Idx) (c : dot_S256x2048_S2048x64_S256x64_1_0_0_1_n_n.contr.Idx) :
    (dot_S256x2048_S2048x64_S256x64_1_0_0_1_n_n.lhsIdx j c 1).val = (c ⟨0, by decide⟩).val :=
  dot_S256x2048_S2048x64_S256x64_1_0_0_1_n_n.lhsIdx_val_of_single rfl j c
theorem wv_rhs_0 (j : S256x64.Idx) (c : dot_S256x2048_S2048x64_S256x64_1_0_0_1_n_n.contr.Idx) :
    (dot_S256x2048_S2048x64_S256x64_1_0_0_1_n_n.rhsIdx j c 0).val = (c ⟨0, by decide⟩).val :=
  dot_S256x2048_S2048x64_S256x64_1_0_0_1_n_n.rhsIdx_val_of_single rfl j c
theorem wv_rhs_1 (j : S256x64.Idx) (c : dot_S256x2048_S2048x64_S256x64_1_0_0_1_n_n.contr.Idx) :
    (dot_S256x2048_S2048x64_S256x64_1_0_0_1_n_n.rhsIdx j c 1).val = (j 1).val := by
  unfold DotDims.rhsIdx
  rw [dif_neg (show ¬(1 : Fin S2048x64.rank) ∈ dot_S256x2048_S2048x64_S256x64_1_0_0_1_n_n.rhsBatch by decide), dif_pos (show (1 : Fin S2048x64.rank) ∈ dot_S256x2048_S2048x64_S256x64_1_0_0_1_n_n.rhsNonContracting by decide)]
  rfl

/-- Entry `(r, d)` of the second product is row `r` of the left operand against column `d` of the right. -/
theorem wv_apply (lhs : FVec Ideal S256x2048 .bf16) (rhs : FVec Ideal S2048x64 .bf16) (r : Fin 256) (d : Fin 64) :
    matmul dot_S256x2048_S2048x64_S256x64_1_0_0_1_n_n none lhs rhs (constant S256x64 .f32 0x00000000#32) (ix2 r d)
      = ∑ kk : Fin 2048, lhs (ix2 r kk) * rhs (ix2 kk d) := by
  simp only [matmul]
  rw [Ideal.matmul_constant_zero_apply, ← Equiv.sum_comp (ValueIdx.contrEquiv1 dot_S256x2048_S2048x64_S256x64_1_0_0_1_n_n 2048 rfl rfl).symm]
  refine Finset.sum_congr rfl fun kk _ => ?_
  have hk := ValueIdx.contrEquiv1_symm_val dot_S256x2048_S2048x64_S256x64_1_0_0_1_n_n 2048 rfl rfl kk
  have el : dot_S256x2048_S2048x64_S256x64_1_0_0_1_n_n.lhsIdx (ix2 r d) ((ValueIdx.contrEquiv1 dot_S256x2048_S2048x64_S256x64_1_0_0_1_n_n 2048 rfl rfl).symm kk) = ix2 r kk := funext fun a => Fin.ext (by
    match a with
    | ⟨0, _⟩ => exact wv_lhs_0 _ _
    | ⟨1, _⟩ => exact (wv_lhs_1 _ _).trans hk)
  have er : dot_S256x2048_S2048x64_S256x64_1_0_0_1_n_n.rhsIdx (ix2 r d) ((ValueIdx.contrEquiv1 dot_S256x2048_S2048x64_S256x64_1_0_0_1_n_n 2048 rfl rfl).symm kk) = ix2 kk d := funext fun a => Fin.ext (by
    match a with
    | ⟨0, _⟩ => exact (wv_rhs_0 _ _).trans hk
    | ⟨1, _⟩ => exact wv_rhs_1 _ _)
  rw [el, er]

/-! ## Re-laying a loaded block: [1, 1, n, w] viewed as [n, w] and back -/

theorem drop_units_apply {α : Type} {n w : Nat} (x : (⟨4, ![1, 1, n, w]⟩ : Shape).Idx → α)
    (h : (⟨4, ![1, 1, n, w]⟩ : Shape).ShapeCasts ⟨2, ![n, w]⟩) (a : Fin n) (b : Fin w) :
    shapeCast ⟨2, ![n, w]⟩ x h (ix2 a b) = x (ix4 0 0 a b) :=
  shapeCast_apply x h (ix2 a b) (ix4 0 0 a b) (by
    rw [Shape.rowMajor_val_two, Shape.rowMajor_val_four]
    show ((0 * 1 + 0) * n + a.val) * w + b.val = a.val * w + b.val
    simp)

theorem add_units_apply {α : Type} {n w : Nat} (x : (⟨2, ![n, w]⟩ : Shape).Idx → α)
    (h : (⟨2, ![n, w]⟩ : Shape).ShapeCasts ⟨4, ![1, 1, n, w]⟩) (a : Fin n) (b : Fin w) :
    shapeCast ⟨4, ![1, 1, n, w]⟩ x h (ix4 0 0 a b) = x (ix2 a b) :=
  shapeCast_apply x h (ix4 0 0 a b) (ix2 a b) (by
    rw [Shape.rowMajor_val_two, Shape.rowMajor_val_four]
    show a.val * w + b.val = ((0 * 1 + 0) * n + a.val) * w + b.val
    simp)

/-! ## The payloads -/

/-- The scores of a half's row `r` against the keys, as the body computes them. -/
def halfScores (kb : FVec Ideal S2048x64 .bf16) (qc : Vec Ideal S1x1x256x64 .f32) (r : Fin 256) : Fin 2048 → EReal :=
  fun k => ∑ d : Fin 64, (qc (ix4 0 0 r d) * Ideal.ofBits .f32 0x3E000000#32) * kb (ix2 k d)

/-- The weights of the second half: entry `(r, k)` is the softmax of row `r`'s scores at `k`. -/
theorem weights_second (kb : FVec Ideal S2048x64 .bf16) (qc : Vec Ideal S1x1x256x64 .f32) (r : Fin 256) (kk : Fin 2048) :
    k0_pay1 (F := Ideal) kb qc (ix2 r kk) = rowSoftmax (halfScores kb qc r) kk := by
  unfold k0_pay1
  refine (softmax_block_apply _ _ _ _ _ _ _ r kk).trans ?_
  refine congrArg (fun s => rowSoftmax s kk) (funext fun k => ?_)
  rw [qk_apply]
  refine Finset.sum_congr rfl fun d _ => ?_
  show (shapeCast S256x64 qc _ (ix2 r d) * Ideal.ofBits .f32 0x3E000000#32) * kb (ix2 k d) = _
  rw [drop_units_apply]

/-- The keys' block viewed as [2048, 64] (the narrowing to bf16 is the identity). -/
theorem keys_apply (x : Vec Ideal S1x1x2048x64 .f32) (k : Fin 2048) (d : Fin 64) :
    k0_pay4 (F := Ideal) x (ix2 k d) = x (ix4 0 0 k d) := by
  unfold k0_pay4
  show shapeCast S2048x64 x _ (ix2 k d) = _
  rw [drop_units_apply]

/-- The values' block viewed as [2048, 64]. -/
theorem values_apply (x : Vec Ideal S1x1x2048x64 .f32) (k : Fin 2048) (d : Fin 64) :
    k0_pay5 (F := Ideal) x (ix2 k d) = x (ix4 0 0 k d) := by
  unfold k0_pay5
  show shapeCast S2048x64 x _ (ix2 k d) = _
  rw [drop_units_apply]

/-- What the body stores into the weights' buffer for a half: the weights, re-laid as [1, 1, 256, 2048]. -/
theorem stored_weights (kb : FVec Ideal S2048x64 .bf16) (qc : Vec Ideal S1x1x256x64 .f32) (r : Fin 256) (kk : Fin 2048) :
    k0_pay2 (F := Ideal) kb qc (ix4 0 0 r kk) = rowSoftmax (halfScores kb qc r) kk := by
  unfold k0_pay2
  show shapeCast S1x1x256x2048 (k0_pay1 kb qc) _ (ix4 0 0 r kk) = _
  rw [add_units_apply]
  exact weights_second kb qc r kk

/-- What the body stores into the result's buffer for a half: row `r`'s weights against column `d` of the values. -/
theorem stored_result (kb vb : FVec Ideal S2048x64 .bf16) (qc : Vec Ideal S1x1x256x64 .f32) (r : Fin 256) (d : Fin 64) :
    k0_pay3 (F := Ideal) kb vb qc (ix4 0 0 r d) = rowAttend (halfScores kb qc r) (fun kk => vb (ix2 kk d)) := by
  unfold k0_pay3
  show shapeCast S1x1x256x64 (matmul dot_S256x2048_S2048x64_S256x64_1_0_0_1_n_n none
    (truncf .bf16 (k0_pay1 kb qc) bitsLt_bf16_f32) vb (constant S256x64 .f32 0x00000000#32)) _ (ix4 0 0 r d) = _
  rw [add_units_apply, wv_apply]
  unfold rowAttend
  refine Finset.sum_congr rfl fun kk _ => ?_
  show k0_pay1 kb qc (ix2 r kk) * vb (ix2 kk d) = _
  rw [weights_second]

/-! The first half's payloads are the second half's, with the keys and values narrowed in place. -/

theorem first_weights_eq {F : FTy → Type} [FloatOps F] (v0 : Vec F S1x1x2048x64 .f32) (v6 : Vec F S1x1x256x64 .f32) :
    k0_pay7 v0 v6 = k0_pay2 (k0_pay4 v0) v6 := rfl

theorem first_result_eq {F : FTy → Type} [FloatOps F] (v0 v2 : Vec F S1x1x2048x64 .f32) (v6 : Vec F S1x1x256x64 .f32) :
    k0_pay8 v0 v2 v6 = k0_pay3 (k0_pay4 v0) (k0_pay5 v2) v6 := rfl

end Cert.Attention.Body

end
-- ==== Proof.BlockValue.lean ====
/-
  What the body leaves in each output buffer, as ONE function of the point's three input blocks.

  A point holds a [1, 1, 512, 64] block of queries `x0` and the [1, 1, 2048, 64] keys `x1` and values `x2` of
  its (batch, head).  The body fills rows 0..255 and rows 256..511 of each output buffer by two stores, each
  computed from the matching 256 rows of `x0`.  Both stores are tiles of one function of the buffer index
  `[0, 0, y, ·]`: the row's scores are `Σ_d (x0[y, d] · 1/8) · x1[k, d]`, the weights' buffer holds their
  softmax and the result's buffer the weights applied to `x2`'s columns.
-/
import proofs.«405126_j4294967296400_3_alg».proof.Proof.Gen.KernelIdeal.Frame
import proofs.«405126_j4294967296400_3_alg».proof.Proof.Payload

noncomputable section

namespace Cert.Attention.Body

open Cert.KernelIdeal Cert.KernelIdeal.Gen Idealize.ShloMosaic Idealize.ShloMosaic.ValueIdx Cert.Attention

/-- An index of a [1, 1, n, w] block is `[0, 0, a, b]`. -/
theorem eq_ix4_units {n w : Nat} (x : (⟨4, ![1, 1, n, w]⟩ : Shape).Idx) : x = ix4 (0 : Fin 1) (0 : Fin 1) (x 2) (x 3) :=
  funext fun a => Fin.ext (by
    match a with
    | ⟨0, _⟩ => have h : (x 0).val < 1 := (x 0).isLt; show (x 0).val = 0; omega
    | ⟨1, _⟩ => have h : (x 1).val < 1 := (x 1).isLt; show (x 1).val = 0; omega
    | ⟨2, _⟩ => rfl
    | ⟨3, _⟩ => rfl)

/-- Rows `o .. o + n - 1` of a [1, 1, N, w] block, all columns: local index `[0, 0, a, b]` sits at `[0, 0, o + a, b]`. -/
theorem rows_idx {N n w o : Nat} (inb : ∀ a, (![0, 0, o, 0] : Fin 4 → Nat) a + (⟨4, ![1, 1, n, w]⟩ : Shape).size a ≤ (⟨4, ![1, 1, N, w]⟩ : Shape).size a)
    (a : Fin n) (b : Fin w) (h : o + a.val < N) :
    (Rect.unit (s := ⟨4, ![1, 1, N, w]⟩) ![0, 0, o, 0] (⟨4, ![1, 1, n, w]⟩ : Shape).size inb).idx (ix4 (0 : Fin 1) (0 : Fin 1) a b)
      = ix4 (0 : Fin 1) (0 : Fin 1) (⟨o + a.val, h⟩ : Fin N) b :=
  funext fun c => Fin.ext (by
    match c with
    | ⟨0, _⟩ => show 0 + 1 * 0 = 0; rfl
    | ⟨1, _⟩ => show 0 + 1 * 0 = 0; rfl
    | ⟨2, _⟩ => show o + 1 * a.val = o + a.val; omega
    | ⟨3, _⟩ => show 0 + 1 * b.val = b.val; omega)

/-- Row `r` of the first half and of the second half, as a row of the 512-row block. -/
abbrev firstRow (r : Fin 256) : Fin 512 := ⟨0 + r.val, by omega⟩
abbrev secondRow (r : Fin 256) : Fin 512 := ⟨256 + r.val, by omega⟩

/-- The scores of row `y` of the query block against the key block. -/
def blockScores (x0 : Vec Ideal S1x1x512x64 .f32) (x1 : Vec Ideal S1x1x2048x64 .f32) (y : Fin 512) : Fin 2048 → EReal :=
  fun k => ∑ d : Fin 64, (x0 (ix4 0 0 y d) * Ideal.ofBits .f32 0x3E000000#32) * x1 (ix4 0 0 k d)

/-- The weights' buffer after the body. -/
def blockWeights (x0 : Vec Ideal S1x1x512x64 .f32) (x1 : Vec Ideal S1x1x2048x64 .f32) : Vec Ideal S1x1x512x2048 .f32 :=
  fun y => rowSoftmax (blockScores x0 x1 (y 2)) (y 3)

/-- The result's buffer after the body. -/
def blockResult (x0 : Vec Ideal S1x1x512x64 .f32) (x1 x2 : Vec Ideal S1x1x2048x64 .f32) : Vec Ideal S1x1x512x64 .f32 :=
  fun y => rowAttend (blockScores x0 x1 (y 2)) (fun kk => x2 (ix4 0 0 kk (y 3)))

/-- A half's scores, computed from its 256 loaded rows and the narrowed keys, are the block's scores at that row. -/
theorem halfScores_first (x0 : Vec Ideal S1x1x512x64 .f32) (x1 : Vec Ideal S1x1x2048x64 .f32) (r : Fin 256) :
    halfScores (k0_pay4 (View.ld x1 r0_0)) (View.ld x0 r0_1) r = blockScores x0 x1 (firstRow r) := by
  funext k
  unfold halfScores blockScores
  refine Finset.sum_congr rfl fun d _ => ?_
  rw [keys_apply]
  show (x0 (r0_1.idx (ix4 0 0 r d)) * _) * x1 (r0_0.idx (ix4 0 0 k d)) = _
  rw [show r0_1.idx (ix4 0 0 r d) = ix4 0 0 (firstRow r) d from rows_idx _ r d _,
    show r0_0.idx (ix4 0 0 k d) = ix4 0 0 (⟨0 + k.val, by omega⟩ : Fin 2048) d from rows_idx _ k d _]
  exact congrArg (fun z => (x0 (ix4 0 0 (firstRow r) d) * Ideal.ofBits .f32 0x3E000000#32) * x1 (ix4 0 0 z d)) (Fin.ext (Nat.zero_add _))

theorem halfScores_second (x0 : Vec Ideal S1x1x512x64 .f32) (x1 : Vec Ideal S1x1x2048x64 .f32) (r : Fin 256) :
    halfScores (k0_pay4 (View.ld x1 r0_0)) (View.ld x0 r0_3) r = blockScores x0 x1 (secondRow r) := by
  funext k
  unfold halfScores blockScores
  refine Finset.sum_congr rfl fun d _ => ?_
  rw [keys_apply]
  show (x0 (r0_3.idx (ix4 0 0 r d)) * _) * x1 (r0_0.idx (ix4 0 0 k d)) = _
  rw [show r0_3.idx (ix4 0 0 r d) = ix4 0 0 (secondRow r) d from rows_idx _ r d _,
    show r0_0.idx (ix4 0 0 k d) = ix4 0 0 (⟨0 + k.val, by omega⟩ : Fin 2048) d from rows_idx _ k d _]
  exact congrArg (fun z => (x0 (ix4 0 0 (secondRow r) d) * Ideal.ofBits .f32 0x3E000000#32) * x1 (ix4 0 0 z d)) (Fin.ext (Nat.zero_add _))

/-- The narrowed values at `(k, d)` are the values' block at `[0, 0, k, d]`. -/
theorem values_ld (x2 : Vec Ideal S1x1x2048x64 .f32) (k : Fin 2048) (d : Fin 64) :
    k0_pay5 (F := Ideal) (View.ld x2 r0_0) (ix2 k d) = x2 (ix4 0 0 k d) := by
  rw [values_apply]
  show x2 (r0_0.idx (ix4 0 0 k d)) = _
  rw [show r0_0.idx (ix4 0 0 k d) = ix4 0 0 (⟨0 + k.val, by omega⟩ : Fin 2048) d from rows_idx _ k d _]
  exact congrArg (fun z => x2 (ix4 0 0 z d)) (Fin.ext (Nat.zero_add _))

/-- Both stores into the weights' buffer are tiles of `blockWeights`: the buffer after the body IS `blockWeights`. -/
theorem out_weights (x0 : Vec Ideal S1x1x512x64 .f32) (x1 x2 : Vec Ideal S1x1x2048x64 .f32) :
    out0_4 (F := Ideal) x0 x1 x2 = blockWeights x0 x1 := by
  unfold out0_4
  funext y
  refine View.canon_apply_of_pieces (blockWeights x0 x1) _ ?_ y (cover0_4 _ _ y)
  intro p hp
  simp only [List.mem_cons, List.mem_singleton, List.not_mem_nil, or_false] at hp
  rcases hp with rfl | rfl
  · intro x
    obtain ⟨r, kk, rfl⟩ : ∃ (r : Fin 256) (kk : Fin 2048), x = ix4 (0 : Fin 1) (0 : Fin 1) r kk := ⟨x 2, x 3, eq_ix4_units x⟩
    show k0_pay2 (k0_pay4 (View.ld x1 r0_0)) (View.ld x0 r0_3) (ix4 0 0 r kk) = blockWeights x0 x1 (r0_4.idx (ix4 0 0 r kk))
    rw [stored_weights, halfScores_second, show r0_4.idx (ix4 0 0 r kk) = ix4 0 0 (secondRow r) kk from rows_idx _ r kk _]
    rfl
  · intro x
    obtain ⟨r, kk, rfl⟩ : ∃ (r : Fin 256) (kk : Fin 2048), x = ix4 (0 : Fin 1) (0 : Fin 1) r kk := ⟨x 2, x 3, eq_ix4_units x⟩
    show k0_pay7 (View.ld x1 r0_0) (View.ld x0 r0_1) (ix4 0 0 r kk) = blockWeights x0 x1 (r0_2.idx (ix4 0 0 r kk))
    rw [first_weights_eq, stored_weights, halfScores_first, show r0_2.idx (ix4 0 0 r kk) = ix4 0 0 (firstRow r) kk from rows_idx _ r kk _]
    rfl

/-- Both stores into the result's buffer are tiles of `blockResult`: the buffer after the body IS `blockResult`. -/
theorem out_result (x0 : Vec Ideal S1x1x512x64 .f32) (x1 x2 : Vec Ideal S1x1x2048x64 .f32) :
    out0_3 (F := Ideal) x0 x1 x2 = blockResult x0 x1 x2 := by
  unfold out0_3
  funext y
  refine View.canon_apply_of_pieces (blockResult x0 x1 x2) _ ?_ y (cover0_3 _ _ y)
  intro p hp
  simp only [List.mem_cons, List.mem_singleton, List.not_mem_nil, or_false] at hp
  rcases hp with rfl | rfl
  · intro x
    obtain ⟨r, d, rfl⟩ : ∃ (r : Fin 256) (d : Fin 64), x = ix4 (0 : Fin 1) (0 : Fin 1) r d := ⟨x 2, x 3, eq_ix4_units x⟩
    show k0_pay3 (k0_pay4 (View.ld x1 r0_0)) (k0_pay5 (View.ld x2 r0_0)) (View.ld x0 r0_3) (ix4 0 0 r d) = blockResult x0 x1 x2 (r0_3.idx (ix4 0 0 r d))
    rw [stored_result, halfScores_second, show r0_3.idx (ix4 0 0 r d) = ix4 0 0 (secondRow r) d from rows_idx _ r d _]
    show rowAttend _ _ = rowAttend (blockScores x0 x1 (secondRow r)) (fun kk => x2 (ix4 0 0 kk d))
    refine congrArg (rowAttend _) (funext fun kk => ?_)
    rw [values_ld]
  · intro x
    obtain ⟨r, d, rfl⟩ : ∃ (r : Fin 256) (d : Fin 64), x = ix4 (0 : Fin 1) (0 : Fin 1) r d := ⟨x 2, x 3, eq_ix4_units x⟩
    show k0_pay8 (View.ld x1 r0_0) (View.ld x2 r0_0) (View.ld x0 r0_1) (ix4 0 0 r d) = blockResult x0 x1 x2 (r0_1.idx (ix4 0 0 r d))
    rw [first_result_eq, stored_result, halfScores_first, show r0_1.idx (ix4 0 0 r d) = ix4 0 0 (firstRow r) d from rows_idx _ r d _]
    show rowAttend _ _ = rowAttend (blockScores x0 x1 (firstRow r)) (fun kk => x2 (ix4 0 0 kk d))
    refine congrArg (rowAttend _) (funext fun kk => ?_)
    rw [values_ld]

end Cert.Attention.Body

end
-- ==== Proof.KernelValue.lean ====
/-
  From blocks to whole arrays.  Grid point `(b, h, qi)` stages query rows `512·qi .. 512·qi + 511` of
  (batch `b`, head `h`), all 2048 key rows and value rows of `(b, h)`, and writes back the same 512 rows of
  the result and of the weights.  So what the point writes back is block `(b, h, qi)` of ONE function of the
  argument arrays — `weights` resp. `attended` of the scaled scores — and since the 2 · 16 · 4 blocks tile
  each output array, the array ends holding that function everywhere.
-/
import proofs.«405126_j4294967296400_3_alg».proof.Proof.Gen.KernelIdeal.Value
import proofs.«405126_j4294967296400_3_alg».proof.Proof.BlockValue

noncomputable section

namespace Cert.Attention.KernelRun

open Cert.KernelIdeal Cert.KernelIdeal.Gen Cert.KernelIdeal.Value Idealize.ShloMosaic Idealize.ShloMosaic.TcCoe Idealize.SL.Sem
open Idealize.ShloMosaic.ValueIdx Cert.Attention Cert.Attention.Body
open Idealize.ShloMosaic.Pipeline (Dat)

variable (m : (ℓ : Loc nD τ sig) → Buf (Elt Ideal) ℓ) (ρ : Dev nD → PrngReg)

/-- The printed index maps, decided over the 128 grid points: queries and result move with the weights on the
    batch, head and row-block axes; keys and values on batch and head only, their row block fixed at 0; the last
    axis is never blocked; and the weights' block indices range over 2 × 16 × 4. -/
theorem idx_facts : ∀ t : Fin cfg0.N,
    (win0_0.index t (0 : Fin 4) = win0_4.index t (0 : Fin 4) ∧ win0_0.index t (1 : Fin 4) = win0_4.index t (1 : Fin 4)
      ∧ win0_0.index t (2 : Fin 4) = win0_4.index t (2 : Fin 4) ∧ win0_0.index t (3 : Fin 4) = 0)
    ∧ (win0_1.index t (0 : Fin 4) = win0_4.index t (0 : Fin 4) ∧ win0_1.index t (1 : Fin 4) = win0_4.index t (1 : Fin 4)
      ∧ win0_1.index t (2 : Fin 4) = 0 ∧ win0_1.index t (3 : Fin 4) = 0)
    ∧ (win0_2.index t (0 : Fin 4) = win0_4.index t (0 : Fin 4) ∧ win0_2.index t (1 : Fin 4) = win0_4.index t (1 : Fin 4)
      ∧ win0_2.index t (2 : Fin 4) = 0 ∧ win0_2.index t (3 : Fin 4) = 0)
    ∧ (win0_3.index t (0 : Fin 4) = win0_4.index t (0 : Fin 4) ∧ win0_3.index t (1 : Fin 4) = win0_4.index t (1 : Fin 4)
      ∧ win0_3.index t (2 : Fin 4) = win0_4.index t (2 : Fin 4) ∧ win0_3.index t (3 : Fin 4) = 0)
    ∧ (win0_4.index t (0 : Fin 4) ≤ 1 ∧ win0_4.index t (1 : Fin 4) ≤ 15 ∧ win0_4.index t (2 : Fin 4) ≤ 3 ∧ win0_4.index t (3 : Fin 4) = 0) :=
  (by decide +kernel : ∀ t : Fin grid0.N, _)

/-- Every (batch, head, row block) is some point's. -/
theorem idx_onto : ∀ (b : Fin 2) (h : Fin 16) (qi : Fin 4), ∃ t : Fin cfg0.N, win0_4.index t = ![b.val, h.val, qi.val, 0] :=
  (by decide +kernel : ∀ (b : Fin 2) (h : Fin 16) (qi : Fin 4), ∃ t : Fin grid0.N, win0_4.index t = ![b.val, h.val, qi.val, 0])

/-! ## The input blocks as entries of the argument arrays -/

theorem qblk_apply (c : Dev nD) (t : Fin cfg0.N) (y : Fin 512) (d : Fin 64) (b : Fin 2) (h : Fin 16) (R : Fin 2048)
    (hb : b.val = win0_4.index t (0 : Fin 4)) (hh : h.val = win0_4.index t (1 : Fin 4)) (hR : R.val = win0_4.index t (2 : Fin 4) * 512 + y.val) :
    (iblk m c 0 t : Vec Ideal S1x1x512x64 .f32) (ix4 0 0 y d) = (V m c main_arg0 : FVec Ideal SQ .f32) (ix4 b h R d) := by
  obtain ⟨⟨e0, e1, e2, e3⟩, -⟩ := idx_facts t
  unfold iblk
  rw [View.read_apply]
  show V m c main_arg0 _ = V m c main_arg0 _
  congr 1
  funext a
  apply Fin.ext
  match a with
  | ⟨0, _⟩ => show win0_0.index t (0 : Fin 4) * 1 + 1 * 0 = b.val; omega
  | ⟨1, _⟩ => show win0_0.index t (1 : Fin 4) * 1 + 1 * 0 = h.val; omega
  | ⟨2, _⟩ => show win0_0.index t (2 : Fin 4) * 512 + 1 * y.val = R.val; omega
  | ⟨3, _⟩ => show win0_0.index t (3 : Fin 4) * 64 + 1 * d.val = d.val; omega

theorem kblk_apply (c : Dev nD) (t : Fin cfg0.N) (k : Fin 2048) (d : Fin 64) (b : Fin 2) (h : Fin 16)
    (hb : b.val = win0_4.index t (0 : Fin 4)) (hh : h.val = win0_4.index t (1 : Fin 4)) :
    (iblk m c 1 t : Vec Ideal S1x1x2048x64 .f32) (ix4 0 0 k d) = (V m c main_arg1 : FVec Ideal SQ .f32) (ix4 b h k d) := by
  obtain ⟨-, ⟨e0, e1, e2, e3⟩, -⟩ := idx_facts t
  unfold iblk
  rw [View.read_apply]
  show V m c main_arg1 _ = V m c main_arg1 _
  congr 1
  funext a
  apply Fin.ext
  match a with
  | ⟨0, _⟩ => show win0_1.index t (0 : Fin 4) * 1 + 1 * 0 = b.val; omega
  | ⟨1, _⟩ => show win0_1.index t (1 : Fin 4) * 1 + 1 * 0 = h.val; omega
  | ⟨2, _⟩ => show win0_1.index t (2 : Fin 4) * 2048 + 1 * k.val = k.val; omega
  | ⟨3, _⟩ => show win0_1.index t (3 : Fin 4) * 64 + 1 * d.val = d.val; omega

theorem vblk_apply (c : Dev nD) (t : Fin cfg0.N) (k : Fin 2048) (d : Fin 64) (b : Fin 2) (h : Fin 16)
    (hb : b.val = win0_4.index t (0 : Fin 4)) (hh : h.val = win0_4.index t (1 : Fin 4)) :
    (iblk m c 2 t : Vec Ideal S1x1x2048x64 .f32) (ix4 0 0 k d) = (V m c main_arg2 : FVec Ideal SQ .f32) (ix4 b h k d) := by
  obtain ⟨-, -, ⟨e0, e1, e2, e3⟩, -⟩ := idx_facts t
  unfold iblk
  rw [View.read_apply]
  show V m c main_arg2 _ = V m c main_arg2 _
  congr 1
  funext a
  apply Fin.ext
  match a with
  | ⟨0, _⟩ => show win0_2.index t (0 : Fin 4) * 1 + 1 * 0 = b.val; omega
  | ⟨1, _⟩ => show win0_2.index t (1 : Fin 4) * 1 + 1 * 0 = h.val; omega
  | ⟨2, _⟩ => show win0_2.index t (2 : Fin 4) * 2048 + 1 * k.val = k.val; omega
  | ⟨3, _⟩ => show win0_2.index t (3 : Fin 4) * 64 + 1 * d.val = d.val; omega

/-- Row `y` of point `t`'s query block scored against its key block is row `R = 512·qi + y` of `(b, h)` scored
    against the keys of `(b, h)`. -/
theorem blockScores_eq (c : Dev nD) (t : Fin cfg0.N) (y : Fin 512) (b : Fin 2) (h : Fin 16) (R : Fin 2048)
    (hb : b.val = win0_4.index t (0 : Fin 4)) (hh : h.val = win0_4.index t (1 : Fin 4)) (hR : R.val = win0_4.index t (2 : Fin 4) * 512 + y.val) :
    blockScores (iblk m c 0 t) (iblk m c 1 t) y = scoreScaled (V m c main_arg0) (V m c main_arg1) b h R := by
  funext k
  unfold blockScores scoreScaled
  refine Finset.sum_congr rfl fun d _ => ?_
  rw [qblk_apply m c t y d b h R hb hh hR, kblk_apply m c t k d b h hb hh]

/-! ## What a point writes back -/

/-- Point `t` writes back block `t` of the weights of the scaled scores. -/
theorem flushed_weights (c : Dev nD) (t : Fin cfg0.N) :
    (dats m 0 c).flushed 4 t
      = ((cfg0.win 4).blk t).view.read (Elt Ideal) (weights (scoreScaled (V m c main_arg0) (V m c main_arg1))) := by
  rw [Value.flushed4, out_weights]
  obtain ⟨-, -, -, -, ⟨l0, l1, l2, l3⟩⟩ := idx_facts t
  funext j
  have hj0 : (j 0).val < 1 := (j 0).isLt
  have hj1 : (j 1).val < 1 := (j 1).isLt
  have hj2 : (j 2).val < 512 := (j 2).isLt
  have hj3 : (j 3).val < 2048 := (j 3).isLt
  have he : ((cfg0.win 4).blk t).view.emb j
      = ix4 (⟨win0_4.index t (0 : Fin 4), by omega⟩ : Fin 2) (⟨win0_4.index t (1 : Fin 4), by omega⟩ : Fin 16)
          (⟨win0_4.index t (2 : Fin 4) * 512 + (j 2).val, by omega⟩ : Fin 2048) (⟨(j 3).val, hj3⟩ : Fin 2048) := by
    funext a
    apply Fin.ext
    match a with
    | ⟨0, _⟩ => show win0_4.index t (0 : Fin 4) * 1 + 1 * (j 0).val = win0_4.index t (0 : Fin 4); omega
    | ⟨1, _⟩ => show win0_4.index t (1 : Fin 4) * 1 + 1 * (j 1).val = win0_4.index t (1 : Fin 4); omega
    | ⟨2, _⟩ => show win0_4.index t (2 : Fin 4) * 512 + 1 * (j 2).val = win0_4.index t (2 : Fin 4) * 512 + (j 2).val; omega
    | ⟨3, _⟩ => show win0_4.index t (3 : Fin 4) * 2048 + 1 * (j 3).val = (j 3).val; omega
  show blockWeights (iblk m c 0 t) (iblk m c 1 t) ((cfg0.win 4).xinj (grid0.coords t) j)
    = weights (scoreScaled (V m c main_arg0) (V m c main_arg1)) (((cfg0.win 4).blk t).view.emb j)
  rw [he, weights_ix4]
  show rowSoftmax (blockScores (iblk m c 0 t) (iblk m c 1 t) (⟨(j 2).val, hj2⟩ : Fin 512)) (⟨(j 3).val, hj3⟩ : Fin 2048) = _
  rw [blockScores_eq m c t ⟨(j 2).val, hj2⟩ ⟨win0_4.index t (0 : Fin 4), by omega⟩ ⟨win0_4.index t (1 : Fin 4), by omega⟩
    ⟨win0_4.index t (2 : Fin 4) * 512 + (j 2).val, by omega⟩ rfl rfl rfl]

/-- Point `t` writes back block `t` of the attended values of the scaled scores. -/
theorem flushed_result (c : Dev nD) (t : Fin cfg0.N) :
    (dats m 0 c).flushed 3 t
      = ((cfg0.win 3).blk t).view.read (Elt Ideal) (attended (scoreScaled (V m c main_arg0) (V m c main_arg1)) (V m c main_arg2)) := by
  rw [Value.flushed3, out_result]
  obtain ⟨-, -, -, ⟨e0, e1, e2, e3⟩, ⟨l0, l1, l2, l3⟩⟩ := idx_facts t
  funext j
  have hj0 : (j 0).val < 1 := (j 0).isLt
  have hj1 : (j 1).val < 1 := (j 1).isLt
  have hj2 : (j 2).val < 512 := (j 2).isLt
  have hj3 : (j 3).val < 64 := (j 3).isLt
  have he : ((cfg0.win 3).blk t).view.emb j
      = ix4 (⟨win0_4.index t (0 : Fin 4), by omega⟩ : Fin 2) (⟨win0_4.index t (1 : Fin 4), by omega⟩ : Fin 16)
          (⟨win0_4.index t (2 : Fin 4) * 512 + (j 2).val, by omega⟩ : Fin 2048) (⟨(j 3).val, hj3⟩ : Fin 64) := by
    funext a
    apply Fin.ext
    match a with
    | ⟨0, _⟩ => show win0_3.index t (0 : Fin 4) * 1 + 1 * (j 0).val = win0_4.index t (0 : Fin 4); omega
    | ⟨1, _⟩ => show win0_3.index t (1 : Fin 4) * 1 + 1 * (j 1).val = win0_4.index t (1 : Fin 4); omega
    | ⟨2, _⟩ => show win0_3.index t (2 : Fin 4) * 512 + 1 * (j 2).val = win0_4.index t (2 : Fin 4) * 512 + (j 2).val; omega
    | ⟨3, _⟩ => show win0_3.index t (3 : Fin 4) * 64 + 1 * (j 3).val = (j 3).val; omega
  show blockResult (iblk m c 0 t) (iblk m c 1 t) (iblk m c 2 t) ((cfg0.win 3).xinj (grid0.coords t) j)
    = attended (scoreScaled (V m c main_arg0) (V m c main_arg1)) (V m c main_arg2) (((cfg0.win 3).blk t).view.emb j)
  rw [he, attended_ix4]
  show rowAttend (blockScores (iblk m c 0 t) (iblk m c 1 t) (⟨(j 2).val, hj2⟩ : Fin 512))
    (fun kk => (iblk m c 2 t : Vec Ideal S1x1x2048x64 .f32) (ix4 0 0 kk (⟨(j 3).val, hj3⟩ : Fin 64))) = _
  rw [blockScores_eq m c t ⟨(j 2).val, hj2⟩ ⟨win0_4.index t (0 : Fin 4), by omega⟩ ⟨win0_4.index t (1 : Fin 4), by omega⟩
    ⟨win0_4.index t (2 : Fin 4) * 512 + (j 2).val, by omega⟩ rfl rfl rfl]
  refine congrArg (rowAttend _) (funext fun kk => ?_)
  exact vblk_apply m c t kk ⟨(j 3).val, hj3⟩ ⟨win0_4.index t (0 : Fin 4), by omega⟩ ⟨win0_4.index t (1 : Fin 4), by omega⟩ rfl rfl

/-! ## The blocks tile each output array -/

theorem mem_blk_weights (t : Fin cfg0.N) (i : S2x16x2048x2048.Idx) :
    i ∈ ((cfg0.win 4).blk t).view.set ↔ ∀ a : Fin 4, win0_4.index t a * S1x1x512x2048.size a ≤ (i a).val ∧ (i a).val < win0_4.index t a * S1x1x512x2048.size a + S1x1x512x2048.size a := by
  show i ∈ ((View.whole main_v0_1).slice (win0_4.rect t)).set ↔ _
  rw [View.set_slice_whole, Rect.mem_set_unit]
  exact Iff.rfl

theorem mem_blk_result (t : Fin cfg0.N) (i : S2x16x2048x64.Idx) :
    i ∈ ((cfg0.win 3).blk t).view.set ↔ ∀ a : Fin 4, win0_3.index t a * S1x1x512x64.size a ≤ (i a).val ∧ (i a).val < win0_3.index t a * S1x1x512x64.size a + S1x1x512x64.size a := by
  show i ∈ ((View.whole main_v0_0).slice (win0_3.rect t)).set ↔ _
  rw [View.set_slice_whole, Rect.mem_set_unit]
  exact Iff.rfl

/-- Entry `[b, h, R, k]` of the weights lies in the block of the point `(b, h, R / 512)`. -/
theorem cover_weights (i : S2x16x2048x2048.Idx) :
    ∃ t : Fin cfg0.N, (cfg0.win 4).flush t = true ∧ i ∈ ((cfg0.win 4).blk t).view.set := by
  have hi0 : (i 0).val < 2 := (i 0).isLt
  have hi1 : (i 1).val < 16 := (i 1).isLt
  have hi2 : (i 2).val < 2048 := (i 2).isLt
  have hi3 : (i 3).val < 2048 := (i 3).isLt
  obtain ⟨t, ht⟩ := idx_onto ⟨(i 0).val, hi0⟩ ⟨(i 1).val, hi1⟩ ⟨(i 2).val / 512, by omega⟩
  have q0 : win0_4.index t (0 : Fin 4) = (i 0).val := congrFun ht 0
  have q1 : win0_4.index t (1 : Fin 4) = (i 1).val := congrFun ht 1
  have q2 : win0_4.index t (2 : Fin 4) = (i 2).val / 512 := congrFun ht 2
  have q3 : win0_4.index t (3 : Fin 4) = 0 := congrFun ht 3
  refine ⟨t, flush0_4 t, ?_⟩
  rw [mem_blk_weights]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 512 ≤ (i 2).val ∧ (i 2).val < win0_4.index t (2 : Fin 4) * 512 + 512; omega
  | ⟨3, _⟩ => show win0_4.index t (3 : Fin 4) * 2048 ≤ (i 3).val ∧ (i 3).val < win0_4.index t (3 : Fin 4) * 2048 + 2048; omega

/-- Entry `[b, h, R, d]` of the result lies in the block of the point `(b, h, R / 512)`. -/
theorem cover_result (i : S2x16x2048x64.Idx) :
    ∃ t : Fin cfg0.N, (cfg0.win 3).flush t = true ∧ i ∈ ((cfg0.win 3).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ := idx_onto ⟨(i 0).val, hi0⟩ ⟨(i 1).val, hi1⟩ ⟨(i 2).val / 512, by omega⟩
  obtain ⟨-, -, -, ⟨e0, e1, e2, e3⟩, -⟩ := idx_facts t
  have q0 : win0_4.index t (0 : Fin 4) = (i 0).val := congrFun ht 0
  have q1 : win0_4.index t (1 : Fin 4) = (i 1).val := congrFun ht 1
  have q2 : win0_4.index t (2 : Fin 4) = (i 2).val / 512 := congrFun ht 2
  refine ⟨t, flush0_3 t, ?_⟩
  rw [mem_blk_result]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 1 ≤ (i 1).val ∧ (i 1).val < win0_3.index t (1 : Fin 4) * 1 + 1; omega
  | ⟨2, _⟩ => show win0_3.index t (2 : Fin 4) * 512 ≤ (i 2).val ∧ (i 2).val < win0_3.index t (2 : Fin 4) * 512 + 512; omega
  | ⟨3, _⟩ => show win0_3.index t (3 : Fin 4) * 64 ≤ (i 3).val ∧ (i 3).val < win0_3.index t (3 : Fin 4) * 64 + 64; omega

/-! ## The arrays after the run -/

theorem final_weights (c : Dev nD) :
    (dats m 0 c).arrAt 4 cfg0.N = weights (scoreScaled (V m c main_arg0) (V m c main_arg1)) :=
  (dats m 0 c).arrAt_eq_of_cover 4 _ (fun t _ => flushed_weights m c t) cover_weights

theorem final_result (c : Dev nD) :
    (dats m 0 c).arrAt 3 cfg0.N = attended (scoreScaled (V m c main_arg0) (V m c main_arg1)) (V m c main_arg2) :=
  (dats m 0 c).arrAt_eq_of_cover 3 _ (fun t _ => flushed_result m c t) cover_result

/-- The kernel's run: every weakly fair execution ends with the result array at the attended values and the weights
    array at the softmax weights of the SCALED scores of the argument arrays, the arguments unchanged. -/
theorem run : θ_run defs (onTc (τ := τ) (main (F := Ideal))) ⟨m, fun _ => 0, ρ⟩ fun r => ∀ c : Dev nD,
      r.2.mem ((c : Thread nD τ).loc main_v0_0)
        = attended (scoreScaled (m ((c : Thread nD τ).loc main_arg0)) (m ((c : Thread nD τ).loc main_arg1))) (m ((c : Thread nD τ).loc main_arg2))
      ∧ r.2.mem ((c : Thread nD τ).loc main_v0_1)
        = weights (scoreScaled (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_result m c), (h c).2.1.trans (final_weights m c), (h c).2.2⟩)
    (Value.run_blocks m ρ)

end Cert.Attention.KernelRun

end
-- ==== Proof.RefValue.lean ====
/-
  The reference, read at an index.  Its host operations compute, for (batch b, head h, query row r):
  the scores `(Σ_d q[b,h,r,d] · k[b,h,kk,d]) / 8`; the row maximum from `-∞` (joined once more with `-∞`, which
  changes nothing, since the maximum taken from `-∞` is already at least `-∞`); the exponentials of the shifted row;
  their sum from `0`; the quotient; and the weights against the values' columns.  These are `weights` and `attended`
  of the DIVIDED scores.
-/
import proofs.«405126_j4294967296400_3_alg».proof.Proof.Gen.ReferenceIdeal.Read
import proofs.«405126_j4294967296400_3_alg».proof.Proof.Spec
import Idealize.ShloMosaic.PureOps.Reduce

noncomputable section

namespace Cert.Attention.Reference

open Cert.ReferenceIdeal Cert.ReferenceIdeal.Gen Cert.ReferenceIdeal.Read Idealize.ShloMosaic Idealize.ShloMosaic.ValueIdx Cert.Attention

variable (x0 x1 x2 : FVec Ideal SQ .f32)

/-- The scores. -/
theorem scores_apply (b : Fin 2) (h : Fin 16) (r kk : Fin 2048) :
    val_main_v2 (F := Ideal) x0 x1 (ix4 b h r kk) = scoreDiv x0 x1 b h r kk := by
  rw [val_main_v2_apply, val_main_v0_apply, val_main_v1_apply, val_main_cst_apply]
  simp only [Ideal.hostDivf_def, Ideal.ofBits_def]
  unfold scoreDiv
  refine congrArg (fun z => Ideal.div z _) (Finset.sum_congr rfl fun d _ => ?_)
  rw [show lidx_main_v0 (ix4 b h r kk) d = ix4 b h r d from
      funext fun a => Fin.ext (by match a with | ⟨0, _⟩ => rfl | ⟨1, _⟩ => rfl | ⟨2, _⟩ => rfl | ⟨3, _⟩ => rfl),
    show ridx_main_v0 (ix4 b h r kk) d = ix4 b h kk d from
      funext fun a => Fin.ext (by match a with | ⟨0, _⟩ => rfl | ⟨1, _⟩ => rfl | ⟨2, _⟩ => rfl | ⟨3, _⟩ => rfl)]

theorem reduces_rows : S2x16x2048x2048.Reduces [3] S2x16x2048 := by decide

theorem lift_row (b : Fin 2) (h : Fin 16) (r k : Fin 2048) :
    reduces_rows.lift (ix3 b h r) k = ix4 b h r k :=
  funext fun a => Fin.ext (by match a with | ⟨0, _⟩ => rfl | ⟨1, _⟩ => rfl | ⟨2, _⟩ => rfl | ⟨3, _⟩ => rfl)

/-- The row maximum (the second join with `-∞` is absorbed). -/
theorem rowmax_apply (b : Fin 2) (h : Fin 16) (r : Fin 2048) :
    val_main_v5 (F := Ideal) x0 x1 (ix3 b h r) = rowMax (scoreDiv x0 x1 b h r) := by
  rw [val_main_v5_apply, val_main_v4_apply, val_main_cst_1_apply]
  unfold val_main_v3
  rw [Host.reduce_eq_fold_single FloatOps.maximumf _ _ reducesTo_S2x16x2048x2048_S2x16x2048_d3 reduces_rows h_S_ (ix3 b h r)]
  have e : (fun k : Fin 2048 => val_main_v2 (F := Ideal) x0 x1 (reduces_rows.lift (ix3 b h r) k)) = scoreDiv x0 x1 b h r :=
    funext fun k => by rw [lift_row, scores_apply]
  show max (Ideal.ofBits .f32 0xFF800000#32) ((Finset.univ : Finset (Fin 2048)).fold max (Ideal.ofBits .f32 0xFF800000#32)
    (fun k : Fin 2048 => val_main_v2 (F := Ideal) x0 x1 (reduces_rows.lift (ix3 b h r) k))) = _
  rw [e]
  exact max_eq_right ((Finset.le_fold_max _).2 (Or.inl le_rfl))

/-- The exponential of the shifted scores. -/
theorem exp_apply (b : Fin 2) (h : Fin 16) (r kk : Fin 2048) :
    val_main_v9 (F := Ideal) x0 x1 (ix4 b h r kk) = rowExp (scoreDiv x0 x1 b h r) kk := by
  rw [val_main_v9_apply, val_main_v8_apply, val_main_v7_apply, val_main_v6_apply, scores_apply,
    show idx_main_v6 (idx_main_v7 (ix4 b h r kk)) = ix3 b h r from
      funext fun a => Fin.ext (by match a with | ⟨0, _⟩ => rfl | ⟨1, _⟩ => rfl | ⟨2, _⟩ => rfl),
    rowmax_apply]
  rfl

/-- The row's sum of exponentials, broadcast along the row. -/
theorem sum_apply (b : Fin 2) (h : Fin 16) (r kk : Fin 2048) :
    val_main_v12 (F := Ideal) x0 x1 (ix4 b h r kk) = ∑ k : Fin 2048, rowExp (scoreDiv x0 x1 b h r) k := by
  rw [val_main_v12_apply, val_main_v11_apply, val_main_v10_apply, val_main_cst_2_apply]
  simp only [Ideal.ofBits_def, Ideal.ofBits_zero_f32, zero_add]
  refine Finset.sum_congr rfl fun k _ => ?_
  rw [show idx_main_v10 (idx_main_v11 (idx_main_v12 (ix4 b h r kk))) k = ix4 b h r k from
      funext fun a => Fin.ext (by match a with | ⟨0, _⟩ => rfl | ⟨1, _⟩ => rfl | ⟨2, _⟩ => rfl | ⟨3, _⟩ => rfl),
    exp_apply]

/-- The reference's second result is the weights of the divided scores. -/
theorem weights_eq : val_main_v13 (F := Ideal) x0 x1 = weights (scoreDiv x0 x1) := by
  funext i
  obtain ⟨b, h, r, kk, rfl⟩ : ∃ (b : Fin 2) (h : Fin 16) (r kk : Fin 2048), i = ix4 b h r kk := ⟨i 0, i 1, i 2, i 3, eq_ix4 i⟩
  rw [val_main_v13_apply, exp_apply, sum_apply, weights_ix4]
  rfl

/-- The reference's first result is the attended values of the divided scores. -/
theorem attended_eq : val_main_v14 (F := Ideal) x0 x1 x2 = attended (scoreDiv x0 x1) x2 := by
  funext i
  obtain ⟨b, h, r, d, rfl⟩ : ∃ (b : Fin 2) (h : Fin 16) (r : Fin 2048) (d : Fin 64), i = ix4 b h r d := ⟨i 0, i 1, i 2, i 3, eq_ix4 i⟩
  rw [val_main_v14_apply, attended_ix4, weights_eq]
  unfold rowAttend
  refine Finset.sum_congr rfl fun k _ => ?_
  rw [show lidx_main_v14 (ix4 b h r d) k = ix4 b h r k from
      funext fun a => Fin.ext (by match a with | ⟨0, _⟩ => rfl | ⟨1, _⟩ => rfl | ⟨2, _⟩ => rfl | ⟨3, _⟩ => rfl),
    show ridx_main_v14 (ix4 b h r d) k = ix4 b h k d from
      funext fun a => Fin.ext (by match a with | ⟨0, _⟩ => rfl | ⟨1, _⟩ => rfl | ⟨2, _⟩ => rfl | ⟨3, _⟩ => rfl),
    weights_ix4]

end Cert.Attention.Reference

end
-- ==== Proof.Finite.lean ====
/-
  The precondition, read back: it states `|x| < +∞` of every entry of each of the three arrays, the three
  conjoined.  An extended real whose absolute value `max x (-x)` is below `+∞` is neither `+∞` nor `-∞`: it is a
  real number.
-/
import proofs.«405126_j4294967296400_3_alg».proof.Pre_finite_inputs
import proofs.«405126_j4294967296400_3_alg».proof.Proof.Gen.Pre_finite_inputs
import proofs.«405126_j4294967296400_3_alg».proof.Proof.Spec
import Idealize.ShloMosaic.Lib.ReduceAll
import Idealize.ShloMosaic.PureOps.Ideal.Laws

noncomputable section

namespace Cert.Attention.Pre

open Idealize.ShloMosaic Idealize.ShloMosaic.ValueIdx Cert.Attention Cert.Pre_finite_inputs Cert.Pre_finite_inputs.Gen

instance : Subsingleton S_.Idx := ⟨fun a b => funext fun d => d.elim0⟩

/-- The pattern `0x7F800000` is `+∞`. -/
theorem ofBits_inf : Ideal.ofBits .f32 0x7F800000#32 = ⊤ := by
  simp [Ideal.ofBits, Ideal.ieee]

/-- An extended real with `|x| < +∞` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- One array's conjunct: the `and` over every entry of `|x| < +∞` is 1, so every entry is real. -/
theorem finite_of_all (x : FVec Ideal S2x16x2048x64 .f32)
    (h : Host.reduce IntOp.andi (cmpf .olt (Host.absf x) (broadcastInDim S2x16x2048x64 ![] bcast_S_S2x16x2048x64 (constant S_ .f32 0x7F800000#32)))
      (constantI S_ 1 1#1) reducesTo_S2x16x2048x64_S_d0_1_2_3 h_S_ ix0 = 1#1) : Finite x := by
  intro i
  have hi := Host.reduce_andi_all _ _ _ _ _ h i
  refine real_of_abs_lt_top (x i) ?_
  have hc : Ideal.cmp .olt (max (x i) (-(x i))) (Ideal.ofBits .f32 0x7F800000#32) = 1#1 := hi
  rw [ofBits_inf] at hc
  by_contra hn
  simp [Ideal.cmp, hn] at hc

/-- The precondition gives every entry of all three arrays real. -/
theorem finite_of_pre (a0 a1 a2 : FVec Ideal S2x16x2048x64 .f32)
    (h : Cert.Pre_finite_inputs.fn (F := Ideal) a0 a1 a2 = fun _ => 1#1) : Finite a0 ∧ Finite a1 ∧ Finite a2 := by
  have h0 := congrFun h ix0
  dsimp only [Cert.Pre_finite_inputs.fn] at h0
  obtain ⟨h01, h2⟩ := IntOp.andi_eq_one.1 h0
  obtain ⟨h0', h1⟩ := IntOp.andi_eq_one.1 h01
  exact ⟨finite_of_all a0 h0', finite_of_all a1 h1, finite_of_all a2 h2⟩

end Cert.Attention.Pre

end
-- ==== Proof.lean ====
/-
  Scaled dot-product attention over f32[2, 16, 2048, 64] queries, keys and values: a kernel that, per (batch,
  head) and per block of 512 query rows, scales the queries by `1/8`, multiplies them against all 2048 key rows,
  takes each row's softmax (shifted by the row maximum) and multiplies the weights against the values — in two
  halves of 256 rows — against the reference `softmax((q · kᵀ) / 8) · v` over the whole arrays.  Both return the
  attended values and the weights.

  On the extended reals the two programs differ in ONE place: where the factor `1/8` meets the sum over the 64
  features.  `Σ_d (q_d · 1/8) · k_d = (Σ_d q_d · k_d) / 8` holds when every `q_d`, `k_d` is a real number (the
  precondition), and the rest — row maximum from `-∞`, exponential, row sum from `0`, quotient, second product —
  is one function of the scores on both sides, however the rows are tiled.

  The modules: `Spec` (the two result arrays as functions of a family of scores; the law), `RowOps` (a row's maximum
  and sum as the vector unit re-lays them), `Payload` (the body's arithmetic at an index), `BlockValue` (each output
  buffer after the body as one function of the point's input blocks), `KernelValue` (blocks to whole arrays, and the
  kernel's run), `RefValue` (the reference's stages at an index), `Finite` (the precondition read back).
-/
import proofs.«405126_j4294967296400_3_alg».proof.Defs
import proofs.«405126_j4294967296400_3_alg».proof.Proof.Gen.Kernel
import proofs.«405126_j4294967296400_3_alg».proof.Proof.Gen.Kernel.Skeleton
import proofs.«405126_j4294967296400_3_alg».proof.Proof.Gen.Kernel.Launch
import proofs.«405126_j4294967296400_3_alg».proof.Proof.Gen.Kernel.Points
import proofs.«405126_j4294967296400_3_alg».proof.Proof.Gen.Kernel.Frame
import proofs.«405126_j4294967296400_3_alg».proof.Proof.Gen.KernelIdeal
import proofs.«405126_j4294967296400_3_alg».proof.Proof.Gen.KernelIdeal.Skeleton
import proofs.«405126_j4294967296400_3_alg».proof.Proof.Gen.KernelIdeal.Launch
import proofs.«405126_j4294967296400_3_alg».proof.Proof.Gen.KernelIdeal.Points
import proofs.«405126_j4294967296400_3_alg».proof.Proof.Gen.KernelIdeal.Frame
import proofs.«405126_j4294967296400_3_alg».proof.Proof.Gen.ReferenceIdeal
import proofs.«405126_j4294967296400_3_alg».proof.Proof.Gen.Pre_finite_inputs
import proofs.«405126_j4294967296400_3_alg».proof.Proof.Gen.KernelIdeal.Value
import proofs.«405126_j4294967296400_3_alg».proof.Proof.Gen.ReferenceIdeal.Run
import proofs.«405126_j4294967296400_3_alg».proof.Proof.Gen.ReferenceIdeal.Read
import proofs.«405126_j4294967296400_3_alg».proof.Proof.KernelValue
import proofs.«405126_j4294967296400_3_alg».proof.Proof.RefValue
import proofs.«405126_j4294967296400_3_alg».proof.Proof.Finite
import Idealize.ShloMosaic.Adequacy
import Idealize.ShloMosaic.Init

noncomputable section

namespace Cert.Proof

open Idealize.ShloMosaic Idealize.ShloMosaic.TcCoe Idealize.SL.Sem Cert.Attention

/-- The word-level kernel runs and leaves its arguments alone: its generated frame. -/
theorem frame_kernel : Cert.frame_Kernel := fun m ρ _ => Cert.Kernel.Gen.frame m ρ

/-- The same of the kernel read on the extended reals. -/
theorem frame_kernelIdeal : Cert.frame_KernelIdeal := fun m ρ _ => Cert.KernelIdeal.Gen.frame m ρ

/-- The reference's run, its two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on finite queries, keys and values, the kernel ends at the attended values and
    weights of the SCALED scores, the reference at those of the DIVIDED scores: the same arrays, because on
    finite entries the two spellings of the scores are one family. -/
theorem algebraic : Cert.algebraic_KernelIdeal_ReferenceIdeal := by
  intro m ρ m' ρ' hpre hagree
  refine ⟨_, _, KernelRun.run m ρ, ?_⟩
  refine (θ_run Cert.ReferenceIdeal.defs _ _).mono (fun _ h c => ?_) (Cert.ReferenceIdeal.Value.run (F := Ideal) m' ρ')
  obtain ⟨hq, hk, -⟩ := Pre.finite_of_pre _ _ _ (hpre c)
  refine ⟨(h c).1.trans ?_, (h c).2.1.trans ?_, (h c).2.2⟩
  · rw [(hagree c).1, (hagree c).2.1, (hagree c).2.2, scoreScaled_eq_scoreDiv _ _ hq hk]
    exact (Cert.ReferenceIdeal.Read.val_main_v14_eq _ _ _).trans (Reference.attended_eq _ _ _)
  · rw [(hagree c).1, (hagree c).2.1, scoreScaled_eq_scoreDiv _ _ hq hk]
    exact (Cert.ReferenceIdeal.Read.val_main_v13_eq _ _).trans (Reference.weights_eq _ _)

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
